-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S768x256 : Shape := ⟨2, ![768, 256]⟩
abbrev S256 : Shape := ⟨1, ![256]⟩
abbrev S512x1 : Shape := ⟨2, ![512, 1]⟩
abbrev S1 : Shape := ⟨1, ![1]⟩
abbrev S4096x4096 : Shape := ⟨2, ![4096, 4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg7 : FVec F S1 .f32) (main_arg8 : FVec F S4096x4096 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  main_v43

def fn_part1 {F : FTy → Type} [FloatOps F] (main_arg4 : FVec F S768x256 .f32) (main_arg5 : FVec F S256 .f32) (main_arg6 : FVec F S512x1 .f32) (main_arg7 : FVec F S1 .f32) (main_arg8 : FVec F S4096x4096 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S768x256 .f32 := Host.absf main_arg4
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_arg8 main_v33

def fn {F : FTy → Type} [FloatOps F] (main_arg0 : FVec F S4096x768 .f32) (main_arg1 : FVec F S4096x768 .f32) (main_arg2 : FVec F S768x256 .f32) (main_arg3 : FVec F S256 .f32) (main_arg4 : FVec F S768x256 .f32) (main_arg5 : FVec F S256 .f32) (main_arg6 : FVec F S512x1 .f32) (main_arg7 : FVec F S1 .f32) (main_arg8 : FVec F S4096x4096 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S4096x768 : Shape := ⟨2, ![4096, 768]⟩
abbrev S768x256 : Shape := ⟨2, ![768, 256]⟩
abbrev S256 : Shape := ⟨1, ![256]⟩
abbrev S512x1 : Shape := ⟨2, ![512, 1]⟩
abbrev S1 : Shape := ⟨1, ![1]⟩
abbrev S4096x4096 : Shape := ⟨2, ![4096, 4096]⟩
abbrev S4096x256 : Shape := ⟨2, ![4096, 256]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S256x1 : Shape := ⟨2, ![256, 1]⟩
abbrev S1x1 : Shape := ⟨2, ![1, 1]⟩
abbrev S512x256 : Shape := ⟨2, ![512, 256]⟩
abbrev S1x512 : Shape := ⟨2, ![1, 512]⟩
abbrev S512x512 : Shape := ⟨2, ![512, 512]⟩
abbrev S256x512 : Shape := ⟨2, ![256, 512]⟩

abbrev nBuf : Space → Nat
  | .hbm => 39
  | .vmem => 20
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x256, .f32⟩
  | .hbm, ⟨3, _⟩ => ⟨S256, .f32⟩
  | .hbm, ⟨4, _⟩ => ⟨S768x256, .f32⟩
  | .hbm, ⟨5, _⟩ => ⟨S256, .f32⟩
  | .hbm, ⟨6, _⟩ => ⟨S512x1, .f32⟩
  | .hbm, ⟨7, _⟩ => ⟨S1, .f32⟩
  | .hbm, ⟨8, _⟩ => ⟨S4096x4096, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S4096x256, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x1, .f32⟩
  | .hbm, ⟨27, _⟩ => ⟨S1x4096, .f32⟩
  | .hbm, ⟨28, _⟩ => ⟨S256x1, .f32⟩
  | .hbm, ⟨29, _⟩ => ⟨S256x1, .f32⟩
  | .hbm, ⟨30, _⟩ => ⟨S4096x1, .f32⟩
  | .hbm, ⟨31, _⟩ => ⟨S1x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .f32⟩
  | .local _ .vmem, ⟨9, _⟩ => ⟨S512x1, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  shapeCasts_S4096x1_S1x4096 : S4096x1.ShapeCasts S1x4096
  slices_S512x1_S256x1_0_0 : S512x1.Slices ![0, 0] S256x1
  slices_S512x1_S256x1_256_0 : S512x1.Slices ![256, 0] S256x1
  shapeCasts_S1_S1x1 : S1.ShapeCasts S1x1
  bcast_S1x1_S4096x1_0_1 : S1x1.BroadcastsInDim S4096x1 (![0, 1] : Fin 2 → Fin S4096x1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  transposes_S512x256_p1_0_S256x512 : S512x256.Transposes [1, 0] S256x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S4096x768_S768x256_S4096x256_1_0_0_1_n_n_wf : DotDims.WF S4096x768 S768x256 S4096x256 [1] [0] [0] [1] [] []
  dot_S4096x256_S256x1_S4096x1_1_0_0_1_n_n_wf : DotDims.WF S4096x256 S256x1 S4096x1 [1] [0] [0] [1] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .f32 = 32 ∨ (Rect.block (s := S4096x4096) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x4096.size a
  hwx0_7 : ∀ i : grid0.Coords, EltTy.bits .f32 = 32 ∨ (Rect.block (s := S4096x4096) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x4096.size a
  hwx0_8 : ∀ i : grid0.Coords, EltTy.bits .f32 = 32 ∨ (Rect.block (s := S4096x4096) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x4096.size a
  hwx0_9 : ∀ i : grid0.Coords, EltTy.bits .f32 = 32 ∨ (Rect.block (s := S4096x4096) S512x512.size (cc0_transform_9 i) (hinb0_9 i)).WholeWords (EltTy.packing .f32)

variable [Facts₀]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v3) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_1) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19_2) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x768 : Shape := ⟨2, ![4096, 768]⟩
abbrev S768x256 : Shape := ⟨2, ![768, 256]⟩
abbrev S256 : Shape := ⟨1, ![256]⟩
abbrev S512x1 : Shape := ⟨2, ![512, 1]⟩
abbrev S1 : Shape := ⟨1, ![1]⟩
abbrev S4096x4096 : Shape := ⟨2, ![4096, 4096]⟩
abbrev S4096x256 : Shape := ⟨2, ![4096, 256]⟩
abbrev S1x256 : Shape := ⟨2, ![1, 256]⟩
abbrev S256x4096 : Shape := ⟨2, ![256, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S256x1 : Shape := ⟨2, ![256, 1]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x256, .f32⟩
  | .hbm, ⟨3, _⟩ => ⟨S256, .f32⟩
  | .hbm, ⟨4, _⟩ => ⟨S768x256, .f32⟩
  | .hbm, ⟨5, _⟩ => ⟨S256, .f32⟩
  | .hbm, ⟨6, _⟩ => ⟨S512x1, .f32⟩
  | .hbm, ⟨7, _⟩ => ⟨S1, .f32⟩
  | .hbm, ⟨8, _⟩ => ⟨S4096x4096, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S256x4096, .f32⟩
  | .hbm, ⟨18, _⟩ => ⟨S4096x4096, .f32⟩
  | .hbm, ⟨19, _⟩ => ⟨S4096x256, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x1, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S256x1, .f32⟩
  | .hbm, ⟨33, _⟩ => ⟨S256x1, .f32⟩
  | .hbm, ⟨34, _⟩ => ⟨S4096x1, .f32⟩
  | .hbm, ⟨35, _⟩ => ⟨S4096x1, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S1x1, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S4096x256_S256x4096_1_0 : S4096x256.Transposes [1, 0] S256x4096
  reducesTo_S4096x256_S4096_d1 : S4096x256.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  slices_S512x1_S256x1_0_0 : S512x1.Slices ![0, 0] S256x1
  slices_S512x1_S256x1_256_0 : S512x1.Slices ![256, 0] S256x1
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  bcast_S_S4096x4096 : S_.BroadcastsInDim S4096x4096 (![] : Fin 0 → Fin S4096x4096.rank)
  dot_S4096x768_S768x256_S4096x256_1_0_0_1_n_n_wf : DotDims.WF S4096x768 S768x256 S4096x256 [1] [0] [0] [1] [] []
  dot_S4096x256_S256x4096_S4096x4096_1_0_0_1_n_n_wf : DotDims.WF S4096x256 S256x4096 S4096x4096 [1] [0] [0] [1] [] []
  dot_S4096x1_S1x4096_S4096x4096_1_0_0_1_n_n_wf : DotDims.WF S4096x1 S1x4096 S4096x4096 [1] [0] [0] [1] [] []
  dot_S4096x256_S256x1_S4096x1_1_0_0_1_n_n_wf : DotDims.WF S4096x256 S256x1 S4096x1 [1] [0] [0] [1] [] []

variable [Facts₀]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.EdgeSpec.lean ====
/-
  What the three results are, index by index, over the extended reals.

  Every entry of the three [4096, 4096] results depends on one image row p and one text row q, through
  the two encoded feature arrays A, B : [4096, 256], the two columns of row norms NA, NB : [4096, 1], the two
  columns of projections P, Q : [4096, 1] onto the halves of the causal weight, the causal bias cb : [1] and the
  edge weights E : [4096, 4096]:

    similarity  sim (p, q)    = (Σ_k A[p, k] · B[q, k]) / (NA[p] · NB[q])
    causal      causal (p, q) = E[p, q] · ((P[p] + Q[q]) + cb)
    combined    final (p, q)  = sim (p, q) + w · causal (p, q)          (w the f32 word of 0.3, the same on both sides)

  The quotient is the extended reals' (the one a float division denotes at the ideal instance). The only algebra
  between the two programs is where the bias enters the causal sum — (P[p] + cb) + Q[q] against (P[p] + Q[q]) + cb —
  which commutativity and associativity of the extended reals' addition settle (no finiteness is needed).
-/
import Idealize.ShloMosaic.PureOps.Ideal
import Idealize.ShloMosaic.Lib.ValueIdx

noncomputable section

namespace Cert.EdgeSpec

open Idealize.ShloMosaic Idealize.ShloMosaic.ValueIdx

/-- The pair shape [4096, 4096] of the results and of the edge weights. -/
abbrev Pair : Shape := ⟨2, ![4096, 4096]⟩
/-- The encoded features [4096, 256]. -/
abbrev Feat : Shape := ⟨2, ![4096, 256]⟩
/-- A column [4096, 1]: a keepdims row norm, or a projection onto half of the causal weight. -/
abbrev Col : Shape := ⟨2, ![4096, 1]⟩
/-- The causal bias [1]. -/
abbrev One : Shape := ⟨1, ![1]⟩

/-- The f32 word both programs scale the causal term by (0.3 rounded to f32), at its exact binary value. -/
abbrev w : EReal := Ideal.ofBits .f32 0x3E99999A#32

/-- Cosine similarity of image row `p` and text row `q`: the inner product of the two feature rows over the
    product of their norms. -/
def simAt (A B : Feat.Idx → EReal) (NA NB : Col.Idx → EReal) (p q : Fin 4096) : EReal :=
  Ideal.div (∑ k : Fin 256, A (ix2 p k) * B (ix2 q k)) (NA (ix2 p (0 : Fin 1)) * NB (ix2 q (0 : Fin 1)))

/-- The causal term at (p, q): the edge weight times the strength, the strength being the two projections and
    the bias added up. -/
def causalAt (P Q : Col.Idx → EReal) (cb : One.Idx → EReal) (E : Pair.Idx → EReal) (p q : Fin 4096) : EReal :=
  E (ix2 p q) * ((P (ix2 p (0 : Fin 1)) + Q (ix2 q (0 : Fin 1))) + cb (ix1 (0 : Fin 1)))

/-- The combined score at (p, q). -/
def finalAt (A B : Feat.Idx → EReal) (NA NB P Q : Col.Idx → EReal) (cb : One.Idx → EReal) (E : Pair.Idx → EReal)
    (p q : Fin 4096) : EReal :=
  simAt A B NA NB p q + w * causalAt P Q cb E p q

/-- The similarity array. -/
def simArr (A B : Feat.Idx → EReal) (NA NB : Col.Idx → EReal) : Pair.Idx → EReal :=
  fun i => simAt A B NA NB (i 0) (i 1)
/-- The causal array. -/
def causalArr (P Q : Col.Idx → EReal) (cb : One.Idx → EReal) (E : Pair.Idx → EReal) : Pair.Idx → EReal :=
  fun i => causalAt P Q cb E (i 0) (i 1)
/-- The combined array. -/
def finalArr (A B : Feat.Idx → EReal) (NA NB P Q : Col.Idx → EReal) (cb : One.Idx → EReal) (E : Pair.Idx → EReal) :
    Pair.Idx → EReal :=
  fun i => finalAt A B NA NB P Q cb E (i 0) (i 1)

theorem simArr_ix2 (A B : Feat.Idx → EReal) (NA NB : Col.Idx → EReal) (p q : Fin 4096) :
    simArr A B NA NB (ix2 p q) = simAt A B NA NB p q := rfl
theorem causalArr_ix2 (P Q : Col.Idx → EReal) (cb : One.Idx → EReal) (E : Pair.Idx → EReal) (p q : Fin 4096) :
    causalArr P Q cb E (ix2 p q) = causalAt P Q cb E p q := rfl
theorem finalArr_ix2 (A B : Feat.Idx → EReal) (NA NB P Q : Col.Idx → EReal) (cb : One.Idx → EReal) (E : Pair.Idx → EReal)
    (p q : Fin 4096) : finalArr A B NA NB P Q cb E (ix2 p q) = finalAt A B NA NB P Q cb E p q := rfl

/-- Where the bias enters the strength does not matter: addition on the extended reals is commutative and
    associative. -/
theorem strength_comm (a b c : EReal) : (a + c) + b = (a + b) + c := add_right_comm a c b

end Cert.EdgeSpec

end
-- ==== Proof.BodyAt.lean ====
/-
  The kernel body's three stored values read at an index of the [512, 512] tile, at the ideal instance.

  At tile index (p, q), from the loaded blocks — image features x0 : [512, 256], text features x1 : [512, 256],
  image norms x2 : [512, 1], text norms x3 : [1, 512], image projections (bias added) x4 : [512, 1], text
  projections x5 : [1, 512], edge weights x6 : [512, 512] —:

    similarity   (Σ_k x0[p, k] · x1[q, k]) / (x2[p, 0] · x3[0, q])
    causal       x6[p, q] · (x4[p, 0] + x5[0, q])
    combined     similarity + w · causal

  The change of format before the matrix product is the identity on the extended reals, the product into a zero
  accumulator is the plain sum over the contracted axis, the transposed right operand is read at the swapped index,
  and a keepdims column (row) broadcast to the tile is read at column (row) 0.
-/
import proofs.«113905_j90598040141832_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyAt

open Cert.KernelIdeal Cert.KernelIdeal.Gen Idealize.ShloMosaic Idealize.ShloMosaic.ValueIdx

/-- A [512, 1] column broadcast over the tile is read at column 0. -/
theorem bcastCol_apply {α : Type} (x : S512x1.Idx → α) (h : S512x1.Broadcasts S512x512) (p q : Fin 512) :
    broadcastTo S512x512 x h (ix2 p q) = x (ix2 p (0 : Fin 1)) :=
  broadcastTo_apply x h (ix2 p q) (ix2 p (0 : Fin 1)) (fun a => match a with
    | ⟨0, _⟩ => by show p.val = (if (512 : Nat) = 1 then 0 else p.val); rw [if_neg (by decide)]
    | ⟨1, _⟩ => by show 0 = (if (1 : Nat) = 1 then 0 else q.val); rw [if_pos rfl])

/-- A [1, 512] row broadcast over the tile is read at row 0. -/
theorem bcastRow_apply {α : Type} (x : S1x512.Idx → α) (h : S1x512.Broadcasts S512x512) (p q : Fin 512) :
    broadcastTo S512x512 x h (ix2 p q) = x (ix2 (0 : Fin 1) q) :=
  broadcastTo_apply x h (ix2 p q) (ix2 (0 : Fin 1) q) (fun a => match a with
    | ⟨0, _⟩ => by show 0 = (if (1 : Nat) = 1 then 0 else p.val); rw [if_pos rfl]
    | ⟨1, _⟩ => by show q.val = (if (512 : Nat) = 1 then 0 else q.val); rw [if_neg (by decide)])

/-! The matrix product's operand indices: output (p, q) and contraction index k read the left operand at (p, k) and
    the right operand at (k, q). -/

theorem lhs_mm_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_mm_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_mm_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_mm_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The tile's matrix product into the zero accumulator, at (p, q): the sum over the 256 contracted coordinates. -/
theorem mm_apply (L : FVec Ideal S512x256 .bf16) (R : FVec Ideal S256x512 .bf16) (p q : Fin 512) :
    matmul dot_S512x256_S256x512_S512x512_1_0_0_1_n_n none L R (constant S512x512 .f32 0x00000000#32) (ix2 p q)
      = ∑ k : Fin 256, L (ix2 p k) * R (ix2 k q) := by
  refine (Ideal.matmul_constant_zero_apply dot_S512x256_S256x512_S512x512_1_0_0_1_n_n none L R (ix2 p q)).trans ?_
  rw [← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ix2 p q) ((ValueIdx.contrEquiv1 dot_S512x256_S256x512_S512x512_1_0_0_1_n_n 256 rfl rfl).symm k) = ix2 p k := funext fun a => Fin.ext (by
    match a with
    | ⟨0, _⟩ => exact lhs_mm_0 _ _
    | ⟨1, _⟩ => exact (lhs_mm_1 _ _).trans hk)
  have er : dot_S512x256_S256x512_S512x512_1_0_0_1_n_n.rhsIdx (ix2 p q) ((ValueIdx.contrEquiv1 dot_S512x256_S256x512_S512x512_1_0_0_1_n_n 256 rfl rfl).symm k) = ix2 k q := funext fun a => Fin.ext (by
    match a with
    | ⟨0, _⟩ => exact (rhs_mm_0 _ _).trans hk
    | ⟨1, _⟩ => exact rhs_mm_1 _ _)
  rw [el, er]

/-- The similarity tile at (p, q). -/
theorem pay1_apply (x0 x1 : Vec Ideal S512x256 .f32) (x2 : Vec Ideal S512x1 .f32) (x3 : Vec Ideal S1x512 .f32) (p q : Fin 512) :
    k0_pay1 (F := Ideal) x0 x1 x2 x3 (ix2 p q)
      = Ideal.div (∑ k : Fin 256, x0 (ix2 p k) * x1 (ix2 q k)) (x2 (ix2 p (0 : Fin 1)) * x3 (ix2 (0 : Fin 1) q)) := by
  unfold k0_pay1
  simp only [divf, mulf, Ideal.divf_def, Ideal.mulf_def, shapeCast_self]
  rw [mm_apply, bcastCol_apply, bcastRow_apply]
  refine congrArg (fun s => Ideal.div s _) (Finset.sum_congr rfl fun k _ => ?_)
  refine congrArg (x0 (ix2 p k) * ·) ?_
  exact transpose_apply [1, 0] _ _ (ix2 k q) (ix2 q k) (fun b => match b with
    | ⟨0, _⟩ => rfl
    | ⟨1, _⟩ => rfl)

/-- The causal tile at (p, q). -/
theorem pay2_apply (x4 : Vec Ideal S512x1 .f32) (x5 : Vec Ideal S1x512 .f32) (x6 : Vec Ideal S512x512 .f32) (p q : Fin 512) :
    k0_pay2 (F := Ideal) x4 x5 x6 (ix2 p q) = x6 (ix2 p q) * (x4 (ix2 p (0 : Fin 1)) + x5 (ix2 (0 : Fin 1) q)) := by
  unfold k0_pay2
  simp only [mulf, addf, Ideal.mulf_def, Ideal.addf_def, shapeCast_self]
  rw [bcastCol_apply, bcastRow_apply]

/-- The combined tile at (p, q): the similarity plus the 0.3 word times the causal term. -/
theorem pay3_apply (x0 x1 : Vec Ideal S512x256 .f32) (x2 : Vec Ideal S512x1 .f32) (x3 : Vec Ideal S1x512 .f32)
    (x4 : Vec Ideal S512x1 .f32) (x5 : Vec Ideal S1x512 .f32) (x6 : Vec Ideal S512x512 .f32) (p q : Fin 512) :
    k0_pay3 (F := Ideal) x0 x1 x2 x3 x4 x5 x6 (ix2 p q)
      = Ideal.div (∑ k : Fin 256, x0 (ix2 p k) * x1 (ix2 q k)) (x2 (ix2 p (0 : Fin 1)) * x3 (ix2 (0 : Fin 1) q))
        + Ideal.ofBits .f32 0x3E99999A#32 * (x6 (ix2 p q) * (x4 (ix2 p (0 : Fin 1)) + x5 (ix2 (0 : Fin 1) q))) := by
  unfold k0_pay3
  simp only [addf, mulf, Ideal.addf_def, Ideal.mulf_def, broadcast]
  rw [pay1_apply, pay2_apply]
  rfl

end Cert.KernelIdeal.BodyAt

end
-- ==== Proof.Tiles.lean ====
/-
  The grid and its tiles. The 8 × 8 grid's point t has a row-tile index I(t) and a column-tile index J(t) (the output
  windows' block indices, each at most 7); the image-side windows (features, norms, projections) move with I, the
  text-side windows with J, the edge weights with both. So an entry of a window's block at point t is an entry of the
  window's array, found at tile index × 512 + the coordinate inside the tile on a tiled axis and at the same
  coordinate on an untiled one.
-/
import proofs.«113905_j90598040141832_1_alg».proof.Proof.Gen.KernelIdeal.Frame
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided over the 64 grid points: every window's block indices in terms of the similarity
    output's, which are at most 7. -/
theorem idx_facts : ∀ t : Fin cfg0.N,
    win0_0.index t (0 : Fin 2) = win0_8.index t (0 : Fin 2) ∧ win0_0.index t (1 : Fin 2) = 0
    ∧ win0_1.index t (0 : Fin 2) = win0_8.index t (1 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = win0_8.index t (1 : Fin 2)
    ∧ win0_4.index t (0 : Fin 2) = win0_8.index t (0 : Fin 2) ∧ win0_4.index t (1 : Fin 2) = 0
    ∧ win0_5.index t (0 : Fin 2) = 0 ∧ win0_5.index t (1 : Fin 2) = win0_8.index t (1 : Fin 2)
    ∧ win0_6.index t (0 : Fin 2) = win0_8.index t (0 : Fin 2) ∧ win0_6.index t (1 : Fin 2) = win0_8.index t (1 : Fin 2)
    ∧ win0_7.index t (0 : Fin 2) = win0_8.index t (0 : Fin 2) ∧ win0_7.index t (1 : Fin 2) = win0_8.index t (1 : Fin 2)
    ∧ win0_9.index t (0 : Fin 2) = win0_8.index t (0 : Fin 2) ∧ win0_9.index t (1 : Fin 2) = win0_8.index t (1 : Fin 2)
    ∧ win0_8.index t (0 : Fin 2) ≤ 7 ∧ win0_8.index t (1 : Fin 2) ≤ 7 :=
  (by decide +kernel : ∀ t : Fin grid0.N, _)

/-- Every pair of tile indices is some grid point's. -/
theorem idx_onto : ∀ (q0 q1 : Fin 8), ∃ t : Fin cfg0.N, win0_8.index t = ![q0.val, q1.val] :=
  (by decide +kernel : ∀ (q0 q1 : Fin 8), ∃ t : Fin grid0.N, win0_8.index t = ![q0.val, q1.val])

/-- Image features: the block's rows are rows I·512 … of the array. -/
theorem blk0_apply (c : Dev nD) (t : Fin cfg0.N) (x : S512x256.Idx) (g : S4096x256.Idx)
    (h0 : (g 0).val = win0_8.index t (0 : Fin 2) * 512 + (x 0).val) (h1 : (g 1).val = (x 1).val) :
    (iblk m c 0 t : Vec F S512x256 .f32) x = (V m c main_v3 : S4096x256.Idx → Elt F .f32) g := by
  obtain ⟨e0, e1, -⟩ := idx_facts t
  show V m c main_v3 (((cfg0.win 0).blk t).view.emb x) = V m c main_v3 g
  refine congrArg (V m c main_v3) (funext fun a => Fin.ext ?_)
  match a with
  | ⟨0, _⟩ => show win0_0.index t (0 : Fin 2) * 512 + 1 * (x 0).val = (g 0).val; rw [e0, h0]; omega
  | ⟨1, _⟩ => show win0_0.index t (1 : Fin 2) * 256 + 1 * (x 1).val = (g 1).val; rw [e1, h1]; omega

/-- Text features: the block's rows are rows J·512 … of the array. -/
theorem blk1_apply (c : Dev nD) (t : Fin cfg0.N) (x : S512x256.Idx) (g : S4096x256.Idx)
    (h0 : (g 0).val = win0_8.index t (1 : Fin 2) * 512 + (x 0).val) (h1 : (g 1).val = (x 1).val) :
    (iblk m c 1 t : Vec F S512x256 .f32) x = (V m c main_v7 : S4096x256.Idx → Elt F .f32) g := by
  obtain ⟨-, -, e0, e1, -⟩ := idx_facts t
  show V m c main_v7 (((cfg0.win 1).blk t).view.emb x) = V m c main_v7 g
  refine congrArg (V m c main_v7) (funext fun a => Fin.ext ?_)
  match a with
  | ⟨0, _⟩ => show win0_1.index t (0 : Fin 2) * 512 + 1 * (x 0).val = (g 0).val; rw [e0, h0]; omega
  | ⟨1, _⟩ => show win0_1.index t (1 : Fin 2) * 256 + 1 * (x 1).val = (g 1).val; rw [e1, h1]; omega

/-- Image norms (a column). -/
theorem blk2_apply (c : Dev nD) (t : Fin cfg0.N) (x : S512x1.Idx) (g : S4096x1.Idx)
    (h0 : (g 0).val = win0_8.index t (0 : Fin 2) * 512 + (x 0).val) (h1 : (g 1).val = (x 1).val) :
    (iblk m c 2 t : Vec F S512x1 .f32) x = (V m c main_v8 : S4096x1.Idx → Elt F .f32) g := by
  obtain ⟨-, -, -, -, e0, e1, -⟩ := idx_facts t
  show V m c main_v8 (((cfg0.win 2).blk t).view.emb x) = V m c main_v8 g
  refine congrArg (V m c main_v8) (funext fun a => Fin.ext ?_)
  match a with
  | ⟨0, _⟩ => show win0_2.index t (0 : Fin 2) * 512 + 1 * (x 0).val = (g 0).val; rw [e0, h0]; omega
  | ⟨1, _⟩ => show win0_2.index t (1 : Fin 2) * 1 + 1 * (x 1).val = (g 1).val; rw [e1, h1]; omega

/-- Text norms (a row). -/
theorem blk3_apply (c : Dev nD) (t : Fin cfg0.N) (x : S1x512.Idx) (g : S1x4096.Idx)
    (h0 : (g 0).val = (x 0).val) (h1 : (g 1).val = win0_8.index t (1 : Fin 2) * 512 + (x 1).val) :
    (iblk m c 3 t : Vec F S1x512 .f32) x = (V m c main_v10 : S1x4096.Idx → Elt F .f32) g := by
  obtain ⟨-, -, -, -, -, -, e0, e1, -⟩ := idx_facts t
  show V m c main_v10 (((cfg0.win 3).blk t).view.emb x) = V m c main_v10 g
  refine congrArg (V m c main_v10) (funext fun a => Fin.ext ?_)
  match a with
  | ⟨0, _⟩ => show win0_3.index t (0 : Fin 2) * 1 + 1 * (x 0).val = (g 0).val; rw [e0, h0]; omega
  | ⟨1, _⟩ => show win0_3.index t (1 : Fin 2) * 512 + 1 * (x 1).val = (g 1).val; rw [e1, h1]; omega

/-- Image projections, bias added (a column). -/
theorem blk4_apply (c : Dev nD) (t : Fin cfg0.N) (x : S512x1.Idx) (g : S4096x1.Idx)
    (h0 : (g 0).val = win0_8.index t (0 : Fin 2) * 512 + (x 0).val) (h1 : (g 1).val = (x 1).val) :
    (iblk m c 4 t : Vec F S512x1 .f32) x = (V m c main_v16 : S4096x1.Idx → Elt F .f32) g := by
  obtain ⟨-, -, -, -, -, -, -, -, e0, e1, -⟩ := idx_facts t
  show V m c main_v16 (((cfg0.win 4).blk t).view.emb x) = V m c main_v16 g
  refine congrArg (V m c main_v16) (funext fun a => Fin.ext ?_)
  match a with
  | ⟨0, _⟩ => show win0_4.index t (0 : Fin 2) * 512 + 1 * (x 0).val = (g 0).val; rw [e0, h0]; omega
  | ⟨1, _⟩ => show win0_4.index t (1 : Fin 2) * 1 + 1 * (x 1).val = (g 1).val; rw [e1, h1]; omega

/-- Text projections (a row). -/
theorem blk5_apply (c : Dev nD) (t : Fin cfg0.N) (x : S1x512.Idx) (g : S1x4096.Idx)
    (h0 : (g 0).val = (x 0).val) (h1 : (g 1).val = win0_8.index t (1 : Fin 2) * 512 + (x 1).val) :
    (iblk m c 5 t : Vec F S1x512 .f32) x = (V m c main_v18 : S1x4096.Idx → Elt F .f32) g := by
  obtain ⟨-, -, -, -, -, -, -, -, -, -, e0, e1, -⟩ := idx_facts t
  show V m c main_v18 (((cfg0.win 5).blk t).view.emb x) = V m c main_v18 g
  refine congrArg (V m c main_v18) (funext fun a => Fin.ext ?_)
  match a with
  | ⟨0, _⟩ => show win0_5.index t (0 : Fin 2) * 1 + 1 * (x 0).val = (g 0).val; rw [e0, h0]; omega
  | ⟨1, _⟩ => show win0_5.index t (1 : Fin 2) * 512 + 1 * (x 1).val = (g 1).val; rw [e1, h1]; omega

/-- Edge weights: tile (I, J) of the array. -/
theorem blk6_apply (c : Dev nD) (t : Fin cfg0.N) (x : S512x512.Idx) (g : S4096x4096.Idx)
    (h0 : (g 0).val = win0_8.index t (0 : Fin 2) * 512 + (x 0).val)
    (h1 : (g 1).val = win0_8.index t (1 : Fin 2) * 512 + (x 1).val) :
    (iblk m c 6 t : Vec F S512x512 .f32) x = (V m c main_arg8 : S4096x4096.Idx → Elt F .f32) g := by
  obtain ⟨-, -, -, -, -, -, -, -, -, -, -, -, e0, e1, -⟩ := idx_facts t
  show V m c main_arg8 (((cfg0.win 6).blk t).view.emb x) = V m c main_arg8 g
  refine congrArg (V m c main_arg8) (funext fun a => Fin.ext ?_)
  match a with
  | ⟨0, _⟩ => show win0_6.index t (0 : Fin 2) * 512 + 1 * (x 0).val = (g 0).val; rw [e0, h0]; omega
  | ⟨1, _⟩ => show win0_6.index t (1 : Fin 2) * 512 + 1 * (x 1).val = (g 1).val; rw [e1, h1]; omega

end Cert.KernelIdeal.Tiles

end
-- ==== Proof.LibColRow.lean ====
/-
  A keepdims column recast as a row, read at an index, for any extent: the [a, 1] array cast to [1, a] holds at (0, i)
  what the column held at (i, 0) — both sit at row-major position i.
-/
import Idealize.ShloMosaic.Lib.Pipeline.Value
import Idealize.ShloMosaic.Lib.ValueIdx

noncomputable section

namespace Idealize.ShloMosaic.ValueIdx

/-- An `[a, 1]` column cast to the `[1, a]` row reads, at `(0, i)`, the column at `(i, 0)`. -/
theorem shapeCast_a1_1a_apply {α : Type} {a : ℕ} (x : (⟨2, ![a, 1]⟩ : Shape).Idx → α)
    (h : (⟨2, ![a, 1]⟩ : Shape).ShapeCasts ⟨2, ![1, a]⟩) (u v : Fin 1) (i : Fin a) :
    shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.zero_mul, Nat.zero_add, Nat.mul_one, Nat.add_zero])

end Idealize.ShloMosaic.ValueIdx

end
-- ==== Proof.HostVals.lean ====
/-
  What the kernel region finds in the arrays its windows stage: the host operations before the launch, read back as
  terms of the arguments.

    features      feat x W b = x · W + b                       (both encoders)
    row norm      rowNorm a  = sqrt (Σ_k a[·, k]²), kept as a column
    projection    proj a w   = a · w, a column

  The region's seven staged arrays are: the image features; the text features; the image features' norms; the text
  features' norms recast as a row; the image projection with the bias added; the text projection recast as a row; the
  edge weights as passed. A recast column is read back at (0, q) as the column at (q, 0); the broadcast bias is the
  bias's one entry.
-/
import proofs.«113905_j90598040141832_1_alg».proof.Proof.Gen.KernelIdeal.Frame
import proofs.«113905_j90598040141832_1_alg».proof.Proof.LibColRow
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVals

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- An encoder: the features `x · W + b`, the bias broadcast along the rows. -/
def feat (x : FVec F S4096x768 .f32) (W : FVec F S768x256 .f32) (b : FVec F S256 .f32) : FVec F S4096x256 .f32 :=
  addf (Host.dotGeneral dot_S4096x768_S768x256_S4096x256_1_0_0_1_n_n none x W)
    (broadcastInDim S4096x256 ![0, 1] bcast_S1x256_S4096x256_0_1 (broadcastInDim S1x256 ![1] bcast_S256_S1x256_1 b))

/-- The keepdims Euclidean norm of every row. -/
def rowNorm (a : FVec F S4096x256 .f32) : FVec F S4096x1 .f32 :=
  Host.sqrt (broadcastInDim S4096x1 ![0] bcast_S4096_S4096x1_0
    (Host.reduceAdd (mulf a a) (constant (F := F) S_ .f32 0x00000000#32) reducesTo_S4096x256_S4096_d1 h_S_))

/-- The projection of every row onto a [256, 1] weight. -/
def proj (a : FVec F S4096x256 .f32) (w : FVec F S256x1 .f32) : FVec F S4096x1 .f32 :=
  Host.dotGeneral dot_S4096x256_S256x1_S4096x1_1_0_0_1_n_n none a w

variable (m : (ℓ : Loc nD τ sig) → Buf (Elt F) ℓ)

/-- The image features. -/
abbrev imgF (c : Dev nD) : FVec F S4096x256 .f32 :=
  feat (m ((c : Thread nD τ).loc main_arg0)) (m ((c : Thread nD τ).loc main_arg2)) (m ((c : Thread nD τ).loc main_arg3))
/-- The text features. -/
abbrev txtF (c : Dev nD) : FVec F S4096x256 .f32 :=
  feat (m ((c : Thread nD τ).loc main_arg1)) (m ((c : Thread nD τ).loc main_arg4)) (m ((c : Thread nD τ).loc main_arg5))
/-- The image projection (onto the first half of the causal weight). -/
abbrev imgP (c : Dev nD) : FVec F S4096x1 .f32 :=
  proj (imgF m c) (extractStridedSlice S256x1 ![0, 0] (m ((c : Thread nD τ).loc main_arg6)) slices_S512x1_S256x1_0_0)
/-- The text projection (onto the second half). -/
abbrev txtP (c : Dev nD) : FVec F S4096x1 .f32 :=
  proj (txtF m c) (extractStridedSlice S256x1 ![256, 0] (m ((c : Thread nD τ).loc main_arg6)) slices_S512x1_S256x1_256_0)

set_option maxHeartbeats 1000000 in
theorem V_v3 (c : Dev nD) : (V m c main_v3 : S4096x256.Idx → Elt F .f32) = imgF m c := by
  dsimp only [V]
  simp only [hostOps0, hostOps0_1, hostOps0_2, hostOps0_3, List.flatten_cons, List.flatten_nil, List.append_nil, List.cons_append, List.nil_append]
  after_results_simp <;> rfl

set_option maxHeartbeats 1000000 in
theorem V_v7 (c : Dev nD) : (V m c main_v7 : S4096x256.Idx → Elt F .f32) = txtF m c := by
  dsimp only [V]
  simp only [hostOps0, hostOps0_1, hostOps0_2, hostOps0_3, List.flatten_cons, List.flatten_nil, List.append_nil, List.cons_append, List.nil_append]
  after_results_simp <;> rfl

set_option maxHeartbeats 1000000 in
theorem V_v8 (c : Dev nD) : (V m c main_v8 : S4096x1.Idx → Elt F .f32) = rowNorm (imgF m c) := by
  dsimp only [V]
  simp only [hostOps0, hostOps0_1, hostOps0_2, hostOps0_3, List.flatten_cons, List.flatten_nil, List.append_nil, List.cons_append, List.nil_append]
  after_results_simp <;> rfl

set_option maxHeartbeats 1000000 in
theorem V_v10 (c : Dev nD) : (V m c main_v10 : S1x4096.Idx → Elt F .f32)
    = shapeCast S1x4096 (rowNorm (txtF m c)) shapeCasts_S4096x1_S1x4096 := by
  dsimp only [V]
  simp only [hostOps0, hostOps0_1, hostOps0_2, hostOps0_3, List.flatten_cons, List.flatten_nil, List.append_nil, List.cons_append, List.nil_append]
  after_results_simp <;> rfl

set_option maxHeartbeats 1000000 in
theorem V_v16 (c : Dev nD) : (V m c main_v16 : S4096x1.Idx → Elt F .f32)
    = addf (imgP m c) (broadcastInDim S4096x1 ![0, 1] bcast_S1x1_S4096x1_0_1
        (shapeCast S1x1 (m ((c : Thread nD τ).loc main_arg7)) shapeCasts_S1_S1x1)) := by
  dsimp only [V]
  simp only [hostOps0, hostOps0_1, hostOps0_2, hostOps0_3, List.flatten_cons, List.flatten_nil, List.append_nil, List.cons_append, List.nil_append]
  after_results_simp <;> rfl

set_option maxHeartbeats 1000000 in
theorem V_v18 (c : Dev nD) : (V m c main_v18 : S1x4096.Idx → Elt F .f32)
    = shapeCast S1x4096 (txtP m c) shapeCasts_S4096x1_S1x4096 := by
  dsimp only [V]
  simp only [hostOps0, hostOps0_1, hostOps0_2, hostOps0_3, List.flatten_cons, List.flatten_nil, List.append_nil, List.cons_append, List.nil_append]
  after_results_simp <;> rfl

/-- The text norms' row at (0, q) is the norm column at (q, 0). -/
theorem V_v10_apply (c : Dev nD) (q : Fin 4096) :
    (V m c main_v10 : S1x4096.Idx → Elt F .f32) (ix2 (0 : Fin 1) q) = rowNorm (txtF m c) (ix2 q (0 : Fin 1)) := by
  rw [V_v10]
  exact shapeCast_a1_1a_apply _ _ 0 0 q

/-- The text projection's row at (0, q) is the projection column at (q, 0). -/
theorem V_v18_apply (c : Dev nD) (q : Fin 4096) :
    (V m c main_v18 : S1x4096.Idx → Elt F .f32) (ix2 (0 : Fin 1) q) = txtP m c (ix2 q (0 : Fin 1)) := by
  rw [V_v18]
  exact shapeCast_a1_1a_apply _ _ 0 0 q

/-- The image projection's column with the bias added, at (p, 0): the projection there plus the bias's one entry. -/
theorem V_v16_apply (c : Dev nD) (p : Fin 4096) :
    (V m c main_v16 : S4096x1.Idx → Elt F .f32) (ix2 p (0 : Fin 1))
      = FloatOps.addf (imgP m c (ix2 p (0 : Fin 1))) ((m ((c : Thread nD τ).loc main_arg7) : S1.Idx → Elt F .f32) (ix1 (0 : Fin 1))) := by
  rw [V_v16]
  refine congrArg (FloatOps.addf (imgP m c (ix2 p (0 : Fin 1)))) ?_
  refine (broadcastInDim_apply _ bcast_S1x1_S4096x1_0_1 _ (ix2 p (0 : Fin 1)) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else 0; rw [if_pos rfl])).trans ?_
  exact shapeCast_a_1a_apply _ _ 0 0

end Cert.KernelIdeal.HostVals

end
-- ==== Proof.KernelArrays.lean ====
/-
  The idealized kernel's three result arrays after the run are the specification's arrays of the host-computed
  intermediates.

  At grid point t, with tile indices (I, J), the body's stored tile at (p, q) is the payload of the seven input blocks
  there; each block entry is its array's entry at the tile's offset, and the recast rows are the columns they came
  from. So what point t writes back is the specification's array read through tile (I, J); the 64 tiles cover the
  [4096, 4096] array (row r lies in tile r / 512), so the array ends holding the specification's array.
  The causal term carries the bias inside the image summand — (P[p] + cb) + Q[q] — where the specification has it
  outside: one use of commutativity and associativity of the extended reals' addition.
-/
import proofs.«113905_j90598040141832_1_alg».proof.Proof.Gen.KernelIdeal.Value
import proofs.«113905_j90598040141832_1_alg».proof.Proof.EdgeSpec
import proofs.«113905_j90598040141832_1_alg».proof.Proof.BodyAt
import proofs.«113905_j90598040141832_1_alg».proof.Proof.Tiles
import proofs.«113905_j90598040141832_1_alg».proof.Proof.HostVals

noncomputable section

namespace Cert.KernelIdeal.Arrays

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.EdgeSpec Cert.KernelIdeal.BodyAt Cert.KernelIdeal.Tiles Cert.KernelIdeal.HostVals

variable (m : (ℓ : Loc nD τ sig) → Buf (Elt Ideal) ℓ) (ρ : Dev nD → PrngReg)

theorem hz : (![0, 0] : Fin 2 → Nat) = fun _ => 0 := funext fun a => by fin_cases a <;> rfl

/-- The causal bias and the edge weights, as passed. -/
abbrev biasK (c : Dev nD) : S1.Idx → EReal := m ((c : Thread nD τ).loc main_arg7)
abbrev edgeK (c : Dev nD) : S4096x4096.Idx → EReal := m ((c : Thread nD τ).loc main_arg8)

/-- The similarity the kernel computes, as the specification's array. -/
abbrev simK (c : Dev nD) : S4096x4096.Idx → EReal :=
  simArr (imgF m c) (txtF m c) (rowNorm (imgF m c)) (rowNorm (txtF m c))
/-- The causal term the kernel computes, as the specification's array. -/
abbrev causalK (c : Dev nD) : S4096x4096.Idx → EReal :=
  causalArr (imgP m c) (txtP m c) (biasK m c) (edgeK m c)
/-- The combined score the kernel computes, as the specification's array. -/
abbrev finalK (c : Dev nD) : S4096x4096.Idx → EReal :=
  finalArr (imgF m c) (txtF m c) (rowNorm (imgF m c)) (rowNorm (txtF m c)) (imgP m c) (txtP m c) (biasK m c) (edgeK m c)

/-- The global row (column) of entry `p` of tile `I`. -/
abbrev glob (I : Nat) (hI : I ≤ 7) (p : Fin 512) : Fin 4096 := ⟨I * 512 + p.val, by have := p.isLt; omega⟩

/-! The seven input blocks at point `t`, each named at its literal shape, and their entries as entries of the
    host-computed intermediates at the tile's global offsets. -/

abbrev xb0 (c : Dev nD) (t : Fin cfg0.N) : Vec Ideal S512x256 .f32 := iblk m c 0 t
abbrev xb1 (c : Dev nD) (t : Fin cfg0.N) : Vec Ideal S512x256 .f32 := iblk m c 1 t
abbrev xb2 (c : Dev nD) (t : Fin cfg0.N) : Vec Ideal S512x1 .f32 := iblk m c 2 t
abbrev xb3 (c : Dev nD) (t : Fin cfg0.N) : Vec Ideal S1x512 .f32 := iblk m c 3 t
abbrev xb4 (c : Dev nD) (t : Fin cfg0.N) : Vec Ideal S512x1 .f32 := iblk m c 4 t
abbrev xb5 (c : Dev nD) (t : Fin cfg0.N) : Vec Ideal S1x512 .f32 := iblk m c 5 t
abbrev xb6 (c : Dev nD) (t : Fin cfg0.N) : Vec Ideal S512x512 .f32 := iblk m c 6 t

theorem xb0_at (c : Dev nD) (t : Fin cfg0.N) (hI : win0_8.index t (0 : Fin 2) ≤ 7) (p : Fin 512) (k : Fin 256) :
    xb0 m c t (ix2 p k) = imgF m c (ix2 (glob _ hI p) k) :=
  (blk0_apply m c t (ix2 p k) (ix2 (glob _ hI p) k) rfl rfl).trans (congrFun (V_v3 m c) _)
theorem xb1_at (c : Dev nD) (t : Fin cfg0.N) (hJ : win0_8.index t (1 : Fin 2) ≤ 7) (q : Fin 512) (k : Fin 256) :
    xb1 m c t (ix2 q k) = txtF m c (ix2 (glob _ hJ q) k) :=
  (blk1_apply m c t (ix2 q k) (ix2 (glob _ hJ q) k) rfl rfl).trans (congrFun (V_v7 m c) _)
theorem xb2_at (c : Dev nD) (t : Fin cfg0.N) (hI : win0_8.index t (0 : Fin 2) ≤ 7) (p : Fin 512) :
    xb2 m c t (ix2 p (0 : Fin 1)) = rowNorm (imgF m c) (ix2 (glob _ hI p) (0 : Fin 1)) :=
  (blk2_apply m c t (ix2 p (0 : Fin 1)) (ix2 (glob _ hI p) (0 : Fin 1)) rfl rfl).trans (congrFun (V_v8 m c) _)
theorem xb3_at (c : Dev nD) (t : Fin cfg0.N) (hJ : win0_8.index t (1 : Fin 2) ≤ 7) (q : Fin 512) :
    xb3 m c t (ix2 (0 : Fin 1) q) = rowNorm (txtF m c) (ix2 (glob _ hJ q) (0 : Fin 1)) :=
  (blk3_apply m c t (ix2 (0 : Fin 1) q) (ix2 (0 : Fin 1) (glob _ hJ q)) rfl rfl).trans (V_v10_apply m c _)
theorem xb4_at (c : Dev nD) (t : Fin cfg0.N) (hI : win0_8.index t (0 : Fin 2) ≤ 7) (p : Fin 512) :
    xb4 m c t (ix2 p (0 : Fin 1))
      = imgP m c (ix2 (glob _ hI p) (0 : Fin 1)) + biasK m c (ix1 (0 : Fin 1)) :=
  (blk4_apply m c t (ix2 p (0 : Fin 1)) (ix2 (glob _ hI p) (0 : Fin 1)) rfl rfl).trans (V_v16_apply m c _)
theorem xb5_at (c : Dev nD) (t : Fin cfg0.N) (hJ : win0_8.index t (1 : Fin 2) ≤ 7) (q : Fin 512) :
    xb5 m c t (ix2 (0 : Fin 1) q) = txtP m c (ix2 (glob _ hJ q) (0 : Fin 1)) :=
  (blk5_apply m c t (ix2 (0 : Fin 1) q) (ix2 (0 : Fin 1) (glob _ hJ q)) rfl rfl).trans (V_v18_apply m c _)
theorem xb6_at (c : Dev nD) (t : Fin cfg0.N) (hI : win0_8.index t (0 : Fin 2) ≤ 7) (hJ : win0_8.index t (1 : Fin 2) ≤ 7) (p q : Fin 512) :
    xb6 m c t (ix2 p q) = edgeK m c (ix2 (glob _ hI p) (glob _ hJ q)) :=
  (blk6_apply m c t (ix2 p q) (ix2 (glob _ hI p) (glob _ hJ q)) rfl rfl).trans (congrFun (V_main_arg8 m c) _)

/-- The similarity tile of point `t` at (p, q) is the specification's similarity at the global pair. -/
theorem simTile (c : Dev nD) (t : Fin cfg0.N) (hI : win0_8.index t (0 : Fin 2) ≤ 7) (hJ : win0_8.index t (1 : Fin 2) ≤ 7) (p q : Fin 512) :
    Ideal.div (∑ k : Fin 256, xb0 m c t (ix2 p k) * xb1 m c t (ix2 q k))
        (xb2 m c t (ix2 p (0 : Fin 1)) * xb3 m c t (ix2 (0 : Fin 1) q))
      = simAt (imgF m c) (txtF m c) (rowNorm (imgF m c)) (rowNorm (txtF m c)) (glob _ hI p) (glob _ hJ q) := by
  unfold simAt
  rw [xb2_at m c t hI p, xb3_at m c t hJ q]
  refine congrArg (fun s => Ideal.div s _) (Finset.sum_congr rfl fun k _ => ?_)
  rw [xb0_at m c t hI p k, xb1_at m c t hJ q k]

/-- The causal tile of point `t` at (p, q) is the specification's causal term at the global pair: the bias moves
    from the image summand to the outside. -/
theorem causalTile (c : Dev nD) (t : Fin cfg0.N) (hI : win0_8.index t (0 : Fin 2) ≤ 7) (hJ : win0_8.index t (1 : Fin 2) ≤ 7) (p q : Fin 512) :
    xb6 m c t (ix2 p q) * (xb4 m c t (ix2 p (0 : Fin 1)) + xb5 m c t (ix2 (0 : Fin 1) q))
      = causalAt (imgP m c) (txtP m c) (biasK m c) (edgeK m c) (glob _ hI p) (glob _ hJ q) := by
  unfold causalAt
  rw [xb6_at m c t hI hJ p q, xb4_at m c t hI p, xb5_at m c t hJ q]
  exact congrArg (fun s : EReal => edgeK m c (ix2 (glob _ hI p) (glob _ hJ q)) * s) (strength_comm _ _ _)

/-- Where entry (p, q) of the output tiles of point `t` sits in the array (the three outputs' index maps agree). -/
theorem emb7 (t : Fin cfg0.N) (hI : win0_8.index t (0 : Fin 2) ≤ 7) (hJ : win0_8.index t (1 : Fin 2) ≤ 7) (p q : Fin 512) :
    ((cfg0.win 7).blk t).view.emb (ix2 p q) = ix2 (glob _ hI p) (glob _ hJ q) := by
  have hf := idx_facts t
  have e0 : win0_7.index t (0 : Fin 2) = win0_8.index t (0 : Fin 2) := hf.2.2.2.2.2.2.2.2.2.2.2.2.2.2.1
  have e1 : win0_7.index t (1 : Fin 2) = win0_8.index t (1 : Fin 2) := hf.2.2.2.2.2.2.2.2.2.2.2.2.2.2.2.1
  exact funext fun a => Fin.ext (by
    match a with
    | ⟨0, _⟩ => show win0_7.index t (0 : Fin 2) * 512 + 1 * p.val = win0_8.index t (0 : Fin 2) * 512 + p.val; rw [e0]; omega
    | ⟨1, _⟩ => show win0_7.index t (1 : Fin 2) * 512 + 1 * q.val = win0_8.index t (1 : Fin 2) * 512 + q.val; rw [e1]; omega)
theorem emb8 (t : Fin cfg0.N) (hI : win0_8.index t (0 : Fin 2) ≤ 7) (hJ : win0_8.index t (1 : Fin 2) ≤ 7) (p q : Fin 512) :
    ((cfg0.win 8).blk t).view.emb (ix2 p q) = ix2 (glob _ hI p) (glob _ hJ q) :=
  funext fun a => Fin.ext (by
    match a with
    | ⟨0, _⟩ => show win0_8.index t (0 : Fin 2) * 512 + 1 * p.val = win0_8.index t (0 : Fin 2) * 512 + p.val; omega
    | ⟨1, _⟩ => show win0_8.index t (1 : Fin 2) * 512 + 1 * q.val = win0_8.index t (1 : Fin 2) * 512 + q.val; omega)
theorem emb9 (t : Fin cfg0.N) (hI : win0_8.index t (0 : Fin 2) ≤ 7) (hJ : win0_8.index t (1 : Fin 2) ≤ 7) (p q : Fin 512) :
    ((cfg0.win 9).blk t).view.emb (ix2 p q) = ix2 (glob _ hI p) (glob _ hJ q) := by
  have hf := idx_facts t
  have e0 : win0_9.index t (0 : Fin 2) = win0_8.index t (0 : Fin 2) := hf.2.2.2.2.2.2.2.2.2.2.2.2.2.2.2.2.1
  have e1 : win0_9.index t (1 : Fin 2) = win0_8.index t (1 : Fin 2) := hf.2.2.2.2.2.2.2.2.2.2.2.2.2.2.2.2.2.1
  exact funext fun a => Fin.ext (by
    match a with
    | ⟨0, _⟩ => show win0_9.index t (0 : Fin 2) * 512 + 1 * p.val = win0_8.index t (0 : Fin 2) * 512 + p.val; rw [e0]; omega
    | ⟨1, _⟩ => show win0_9.index t (1 : Fin 2) * 512 + 1 * q.val = win0_8.index t (1 : Fin 2) * 512 + q.val; rw [e1]; omega)

theorem tileI (t : Fin cfg0.N) : win0_8.index t (0 : Fin 2) ≤ 7 := (idx_facts t).2.2.2.2.2.2.2.2.2.2.2.2.2.2.2.2.2.2.1
theorem tileJ (t : Fin cfg0.N) : win0_8.index t (1 : Fin 2) ≤ 7 := (idx_facts t).2.2.2.2.2.2.2.2.2.2.2.2.2.2.2.2.2.2.2

/-- WHAT POINT `t` WRITES BACK to the similarity array is the specification's similarity read through tile `t`. -/
theorem flushed8_eq (c : Dev nD) (t : Fin cfg0.N) :
    (dats m 0 c).flushed 8 t = ((cfg0.win 8).blk t).view.read (Elt Ideal) (simK m c) := by
  rw [Value.flushed8]
  unfold out0_8
  rw [View.canon_unit_zero hz]
  simp only [View.ld_unit_zero (S := S512x256) hz, View.ld_unit_zero (S := S512x1) hz, View.ld_unit_zero (S := S1x512) hz]
  show (k0_pay1 (F := Ideal) (xb0 m c t) (xb1 m c t) (xb2 m c t) (xb3 m c t) : S512x512.Idx → EReal)
    = fun y : S512x512.Idx => simK m c (((cfg0.win 8).blk t).view.emb y)
  funext y
  obtain ⟨p, q, rfl⟩ : ∃ (p : Fin 512) (q : Fin 512), y = ix2 p q := ⟨y 0, y 1, eq_ix2 y⟩
  refine (pay1_apply (xb0 m c t) (xb1 m c t) (xb2 m c t) (xb3 m c t) p q).trans ?_
  rw [emb8 t (tileI t) (tileJ t) p q]
  exact simTile m c t (tileI t) (tileJ t) p q

/-- WHAT POINT `t` WRITES BACK to the causal array is the specification's causal term read through tile `t`. -/
theorem flushed9_eq (c : Dev nD) (t : Fin cfg0.N) :
    (dats m 0 c).flushed 9 t = ((cfg0.win 9).blk t).view.read (Elt Ideal) (causalK m c) := by
  rw [Value.flushed9]
  unfold out0_9
  rw [View.canon_unit_zero hz]
  simp only [View.ld_unit_zero (S := S512x512) hz, View.ld_unit_zero (S := S512x1) hz, View.ld_unit_zero (S := S1x512) hz]
  show (k0_pay2 (F := Ideal) (xb4 m c t) (xb5 m c t) (xb6 m c t) : S512x512.Idx → EReal)
    = fun y : S512x512.Idx => causalK m c (((cfg0.win 9).blk t).view.emb y)
  funext y
  obtain ⟨p, q, rfl⟩ : ∃ (p : Fin 512) (q : Fin 512), y = ix2 p q := ⟨y 0, y 1, eq_ix2 y⟩
  refine (pay2_apply (xb4 m c t) (xb5 m c t) (xb6 m c t) p q).trans ?_
  rw [emb9 t (tileI t) (tileJ t) p q]
  exact causalTile m c t (tileI t) (tileJ t) p q

/-- WHAT POINT `t` WRITES BACK to the combined array is the specification's combined score read through tile `t`. -/
theorem flushed7_eq (c : Dev nD) (t : Fin cfg0.N) :
    (dats m 0 c).flushed 7 t = ((cfg0.win 7).blk t).view.read (Elt Ideal) (finalK m c) := by
  rw [Value.flushed7]
  unfold out0_7
  rw [View.canon_unit_zero hz]
  simp only [View.ld_unit_zero (S := S512x256) hz, View.ld_unit_zero (S := S512x512) hz, View.ld_unit_zero (S := S512x1) hz,
    View.ld_unit_zero (S := S1x512) hz]
  show (k0_pay3 (F := Ideal) (xb0 m c t) (xb1 m c t) (xb2 m c t) (xb3 m c t) (xb4 m c t) (xb5 m c t) (xb6 m c t) : S512x512.Idx → EReal)
    = fun y : S512x512.Idx => finalK m c (((cfg0.win 7).blk t).view.emb y)
  funext y
  obtain ⟨p, q, rfl⟩ : ∃ (p : Fin 512) (q : Fin 512), y = ix2 p q := ⟨y 0, y 1, eq_ix2 y⟩
  refine (pay3_apply (xb0 m c t) (xb1 m c t) (xb2 m c t) (xb3 m c t) (xb4 m c t) (xb5 m c t) (xb6 m c t) p q).trans ?_
  rw [emb7 t (tileI t) (tileJ t) p q, simTile m c t (tileI t) (tileJ t) p q, causalTile m c t (tileI t) (tileJ t) p q]
  rfl

end Cert.KernelIdeal.Arrays

end
-- ==== Proof.KernelRun.lean ====
/-
  The 64 output tiles cover the [4096, 4096] arrays — entry (r, s) lies in the tile with indices (r / 512, s / 512),
  which is some grid point's — so after the run each of the three result arrays holds the specification's array whole,
  and the idealized kernel's run is re-posted with the three results named.
-/
import proofs.«113905_j90598040141832_1_alg».proof.Proof.KernelArrays

noncomputable section

namespace Cert.KernelIdeal.Arrays

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.EdgeSpec Cert.KernelIdeal.Tiles Cert.KernelIdeal.HostVals

variable (m : (ℓ : Loc nD τ sig) → Buf (Elt Ideal) ℓ) (ρ : Dev nD → PrngReg)

/-- An index of the array is in point `t`'s tile iff each coordinate is in the tile's range on its axis. -/
theorem mem_blk7 (t : Fin cfg0.N) (i : S4096x4096.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v19_0).slice (win0_7.rect t)).set ↔ _
  rw [View.set_slice_whole, Rect.mem_set_unit]
  exact Iff.rfl
theorem mem_blk8 (t : Fin cfg0.N) (i : S4096x4096.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v19_1).slice (win0_8.rect t)).set ↔ _
  rw [View.set_slice_whole, Rect.mem_set_unit]
  exact Iff.rfl
theorem mem_blk9 (t : Fin cfg0.N) (i : S4096x4096.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v19_2).slice (win0_9.rect t)).set ↔ _
  rw [View.set_slice_whole, Rect.mem_set_unit]
  exact Iff.rfl

/-- The grid point whose tile holds entry `i`. -/
theorem tile_of (i : S4096x4096.Idx) : ∃ t : Fin cfg0.N,
    win0_8.index t (0 : Fin 2) = (i 0).val / 512 ∧ win0_8.index t (1 : Fin 2) = (i 1).val / 512 := by
  have hi0 : (i 0).val < 4096 := (i 0).isLt
  have hi1 : (i 1).val < 4096 := (i 1).isLt
  obtain ⟨t, ht⟩ := idx_onto ⟨(i 0).val / 512, by omega⟩ ⟨(i 1).val / 512, by omega⟩
  exact ⟨t, congrFun ht 0, congrFun ht 1⟩

theorem cover8 (i : S4096x4096.Idx) : ∃ t : Fin cfg0.N, (cfg0.win 8).flush t = true ∧ i ∈ ((cfg0.win 8).blk t).view.set := by
  have hi0 : (i 0).val < 4096 := (i 0).isLt
  have hi1 : (i 1).val < 4096 := (i 1).isLt
  obtain ⟨t, q0, q1⟩ := tile_of i
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega

theorem cover7 (i : S4096x4096.Idx) : ∃ t : Fin cfg0.N, (cfg0.win 7).flush t = true ∧ i ∈ ((cfg0.win 7).blk t).view.set := by
  have hi0 : (i 0).val < 4096 := (i 0).isLt
  have hi1 : (i 1).val < 4096 := (i 1).isLt
  obtain ⟨t, q0, q1⟩ := tile_of i
  have hf := idx_facts t
  have e0 : win0_7.index t (0 : Fin 2) = win0_8.index t (0 : Fin 2) := hf.2.2.2.2.2.2.2.2.2.2.2.2.2.2.1
  have e1 : win0_7.index t (1 : Fin 2) = win0_8.index t (1 : Fin 2) := hf.2.2.2.2.2.2.2.2.2.2.2.2.2.2.2.1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

theorem cover9 (i : S4096x4096.Idx) : ∃ t : Fin cfg0.N, (cfg0.win 9).flush t = true ∧ i ∈ ((cfg0.win 9).blk t).view.set := by
  have hi0 : (i 0).val < 4096 := (i 0).isLt
  have hi1 : (i 1).val < 4096 := (i 1).isLt
  obtain ⟨t, q0, q1⟩ := tile_of i
  have hf := idx_facts t
  have e0 : win0_9.index t (0 : Fin 2) = win0_8.index t (0 : Fin 2) := hf.2.2.2.2.2.2.2.2.2.2.2.2.2.2.2.2.1
  have e1 : win0_9.index t (1 : Fin 2) = win0_8.index t (1 : Fin 2) := hf.2.2.2.2.2.2.2.2.2.2.2.2.2.2.2.2.2.1
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-- The three result arrays after the run. -/
theorem final7 (c : Dev nD) : (dats m 0 c).arrAt 7 cfg0.N = finalK m c :=
  (dats m 0 c).arrAt_eq_of_cover 7 (finalK m c) (fun t _ => flushed7_eq m c t) cover7
theorem final8 (c : Dev nD) : (dats m 0 c).arrAt 8 cfg0.N = simK m c :=
  (dats m 0 c).arrAt_eq_of_cover 8 (simK m c) (fun t _ => flushed8_eq m c t) cover8
theorem final9 (c : Dev nD) : (dats m 0 c).arrAt 9 cfg0.N = causalK m c :=
  (dats m 0 c).arrAt_eq_of_cover 9 (causalK m c) (fun t _ => flushed9_eq m c t) cover9

/-- The idealized kernel's run, read: the combined score, the similarity and the causal term at the specification's
    arrays, the arguments unchanged. -/
theorem run : θ_run defs (onTc (τ := τ) (main (F := Ideal))) ⟨m, fun _ => 0, ρ⟩ fun r => ∀ c : Dev nD,
      r.2.mem ((c : Thread nD τ).loc main_v19_0) = finalK m c
      ∧ r.2.mem ((c : Thread nD τ).loc main_v19_1) = simK m c
      ∧ r.2.mem ((c : Thread nD τ).loc main_v19_2) = causalK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final7 m c), (h c).2.1.trans (final8 m c),
      (h c).2.2.1.trans (final9 m c), (h c).2.2.2⟩)
    (Cert.KernelIdeal.Value.run_blocks m ρ)

end Cert.KernelIdeal.Arrays

end
-- ==== Proof.RefArrays.lean ====
/-
  The reference's three results are the specification's arrays of its own intermediate stages.

  Read one operation at a time, the reference's similarity at (p, q) is the quotient of the feature rows' inner
  product — its transposed right operand read at the swapped index — by the one-term product of the two norm
  columns (a contraction over an axis of extent 1 is its single term); its causal term is the edge weight times
  ((image projection + text projection) + bias), the column, the transposed row and the bias each broadcast to the
  pair shape; and the combined score adds the similarity to the 0.3 word times the causal term.
-/
import proofs.«113905_j90598040141832_1_alg».proof.Proof.Gen.ReferenceIdeal.Read
import proofs.«113905_j90598040141832_1_alg».proof.Proof.EdgeSpec

noncomputable section

namespace Cert.ReferenceIdeal.RefArrays

open Cert.ReferenceIdeal Cert.ReferenceIdeal.Read Idealize.ShloMosaic Idealize.ShloMosaic.ValueIdx Cert.EdgeSpec

variable (x0 x1 : (⟨S4096x768, .f32⟩ : BufTy).Contents (Elt Ideal)) (x2 : (⟨S768x256, .f32⟩ : BufTy).Contents (Elt Ideal))
  (x3 : (⟨S256, .f32⟩ : BufTy).Contents (Elt Ideal)) (x4 : (⟨S768x256, .f32⟩ : BufTy).Contents (Elt Ideal))
  (x5 : (⟨S256, .f32⟩ : BufTy).Contents (Elt Ideal)) (x6 : (⟨S512x1, .f32⟩ : BufTy).Contents (Elt Ideal))
  (x7 : (⟨S1, .f32⟩ : BufTy).Contents (Elt Ideal)) (x8 : (⟨S4096x4096, .f32⟩ : BufTy).Contents (Elt Ideal))

/-! The printed index maps at (p, q), as coordinates. -/

theorem lidx9 (p q : Fin 4096) (k : Fin 256) : lidx_main_v9 (ix2 p q) k = ix2 p k :=
  funext fun a => Fin.ext (by match a with | ⟨0, _⟩ => rfl | ⟨1, _⟩ => rfl)
theorem ridx9 (p q : Fin 4096) (k : Fin 256) : idx_main_v8 (ridx_main_v9 (ix2 p q) k) = ix2 q k :=
  funext fun a => Fin.ext (by match a with | ⟨0, _⟩ => rfl | ⟨1, _⟩ => rfl)
theorem lidx13 (p q : Fin 4096) : lidx_main_v13 (ix2 p q) (0 : Fin 1) = ix2 p (0 : Fin 1) :=
  funext fun a => Fin.ext (by match a with | ⟨0, _⟩ => rfl | ⟨1, _⟩ => rfl)
theorem ridx13 (p q : Fin 4096) : idx_main_v12 (ridx_main_v13 (ix2 p q) (0 : Fin 1)) = ix2 q (0 : Fin 1) :=
  funext fun a => Fin.ext (by match a with | ⟨0, _⟩ => rfl | ⟨1, _⟩ => rfl)
theorem idx20 (p q : Fin 4096) : idx_main_v20 (ix2 p q) = ix2 p (0 : Fin 1) :=
  funext fun a => Fin.ext (by match a with | ⟨0, _⟩ => rfl | ⟨1, _⟩ => rfl)
theorem idx21 (p q : Fin 4096) : idx_main_v19 (idx_main_v21 (ix2 p q)) = ix2 q (0 : Fin 1) :=
  funext fun a => Fin.ext (by match a with | ⟨0, _⟩ => rfl | ⟨1, _⟩ => rfl)
theorem idx24 (p q : Fin 4096) : idx_main_v23 (idx_main_v24 (ix2 p q)) = ix1 (0 : Fin 1) :=
  funext fun a => Fin.ext (by match a with | ⟨0, _⟩ => rfl)

/-- The reference's similarity is the specification's, of the reference's features and norms. -/
theorem sim_eq : val_main_v14 (F := Ideal) x0 x1 x2 x3 x4 x5
    = simArr (val_main_v3 (F := Ideal) x0 x2 x3) (val_main_v7 (F := Ideal) x1 x4 x5)
        (val_main_v10 (F := Ideal) x0 x2 x3) (val_main_v11 (F := Ideal) x1 x4 x5) := by
  funext i
  obtain ⟨p, q, rfl⟩ : ∃ (p : Fin 4096) (q : Fin 4096), i = ix2 p q := ⟨i 0, i 1, eq_ix2 i⟩
  rw [simArr_ix2, val_main_v14_apply, val_main_v9_apply, val_main_v13_apply, Fin.sum_univ_one, val_main_v12_apply,
    lidx13, ridx13]
  unfold simAt
  refine congrArg (fun s => Ideal.div s _) (Finset.sum_congr rfl fun k _ => ?_)
  rw [val_main_v8_apply, lidx9, ridx9]

/-- The reference's causal term is the specification's, of the reference's projections. -/
theorem causal_eq : val_main_v26 (F := Ideal) x0 x1 x2 x3 x4 x5 x6 x7 x8
    = causalArr (val_main_v17 (F := Ideal) x0 x2 x3 x6) (val_main_v18 (F := Ideal) x1 x4 x5 x6) x7 x8 := by
  funext i
  obtain ⟨p, q, rfl⟩ : ∃ (p : Fin 4096) (q : Fin 4096), i = ix2 p q := ⟨i 0, i 1, eq_ix2 i⟩
  rw [causalArr_ix2, val_main_v26_apply, val_main_v25_apply, val_main_v22_apply, val_main_v20_apply, val_main_v21_apply,
    val_main_v19_apply, val_main_v24_apply, val_main_v23_apply, idx20, idx21, idx24]
  rfl

/-- The reference's combined score is the specification's. -/
theorem final_eq : val_main_v29 (F := Ideal) x0 x1 x2 x3 x4 x5 x6 x7 x8
    = finalArr (val_main_v3 (F := Ideal) x0 x2 x3) (val_main_v7 (F := Ideal) x1 x4 x5)
        (val_main_v10 (F := Ideal) x0 x2 x3) (val_main_v11 (F := Ideal) x1 x4 x5)
        (val_main_v17 (F := Ideal) x0 x2 x3 x6) (val_main_v18 (F := Ideal) x1 x4 x5 x6) x7 x8 := by
  funext i
  obtain ⟨p, q, rfl⟩ : ∃ (p : Fin 4096) (q : Fin 4096), i = ix2 p q := ⟨i 0, i 1, eq_ix2 i⟩
  rw [finalArr_ix2, val_main_v29_apply, val_main_v28_apply, val_main_v27_apply, val_main_cst_apply, sim_eq, causal_eq,
    simArr_ix2, causalArr_ix2]
  rfl

end Cert.ReferenceIdeal.RefArrays

end
-- ==== Proof.lean ====
/-
  The claim: a 4096 × 4096 grid of image–text edge scores, computed by a tiled kernel, against its plain reference.

  Both programs encode the images and the texts (features = x · W + b), take each feature row's Euclidean norm, and
  project the features onto the two halves of a causal weight — the same host operations on both sides. From these,
  for image p and text q,

    similarity  sim (p, q)    = (Σ_k A[p, k] · B[q, k]) / (NA[p] · NB[q])
    causal      causal (p, q) = E[p, q] · (P[p] + Q[q] + cb)
    combined    final (p, q)  = sim (p, q) + w · causal (p, q),        w the f32 word of 0.3 on both sides.

  The kernel computes a 512 × 512 tile of each result per grid point: it feeds the matrix unit the features in a
  narrower format (the identity on the extended reals) against the transposed text tile, multiplies a norm column by
  a norm row where the reference takes a one-term matrix product of the two columns, and adds the bias to the image
  projection before the text projection where the reference adds it last. At the ideal instance the sums are the same
  sums and the two placements of the bias agree by commutativity and associativity of addition on the extended reals;
  nothing needs the inputs to be finite.

  The three frames: the kernel's two are the generated frame certificates; the reference has no kernel and its frame
  is its run with the results dropped. The idealization rewrote nothing, so the preservation conjunct is trivial.
  The value conjunct sets the idealized kernel's run, read tile by tile (Proof/KernelRun.lean), beside the
  reference's run, read operation by operation (Proof/RefArrays.lean), over one specification (Proof/EdgeSpec.lean).
-/
import proofs.«113905_j90598040141832_1_alg».proof.Defs
import proofs.«113905_j90598040141832_1_alg».proof.Proof.Gen.Kernel
import proofs.«113905_j90598040141832_1_alg».proof.Proof.Gen.Kernel.Skeleton
import proofs.«113905_j90598040141832_1_alg».proof.Proof.Gen.Kernel.Launch
import proofs.«113905_j90598040141832_1_alg».proof.Proof.Gen.Kernel.Points
import proofs.«113905_j90598040141832_1_alg».proof.Proof.Gen.Kernel.Frame
import proofs.«113905_j90598040141832_1_alg».proof.Proof.Gen.KernelIdeal
import proofs.«113905_j90598040141832_1_alg».proof.Proof.Gen.KernelIdeal.Skeleton
import proofs.«113905_j90598040141832_1_alg».proof.Proof.Gen.KernelIdeal.Launch
import proofs.«113905_j90598040141832_1_alg».proof.Proof.Gen.KernelIdeal.Points
import proofs.«113905_j90598040141832_1_alg».proof.Proof.Gen.KernelIdeal.Frame
import proofs.«113905_j90598040141832_1_alg».proof.Proof.Gen.ReferenceIdeal
import proofs.«113905_j90598040141832_1_alg».proof.Proof.Gen.Pre_finite_inputs
import proofs.«113905_j90598040141832_1_alg».proof.Proof.Gen.KernelIdeal.Value
import proofs.«113905_j90598040141832_1_alg».proof.Proof.Gen.ReferenceIdeal.Run
import proofs.«113905_j90598040141832_1_alg».proof.Proof.Gen.ReferenceIdeal.Read
import proofs.«113905_j90598040141832_1_alg».proof.Proof.KernelRun
import proofs.«113905_j90598040141832_1_alg».proof.Proof.RefArrays
import Idealize.ShloMosaic.Adequacy
import Idealize.ShloMosaic.Init

noncomputable section

namespace Cert.Proof

open Idealize.ShloMosaic Idealize.ShloMosaic.TcCoe Idealize.SL.Sem

/-! ## The shared intermediates: both programs apply the same host operations -/

/-- The kernel program's encoder is the reference's image encoder … -/
theorem feat_img (x : FVec Ideal Cert.KernelIdeal.S4096x768 .f32) (W : FVec Ideal Cert.KernelIdeal.S768x256 .f32)
    (b : FVec Ideal Cert.KernelIdeal.S256 .f32) :
    Cert.ReferenceIdeal.Read.val_main_v3 (F := Ideal) x W b = Cert.KernelIdeal.HostVals.feat (F := Ideal) x W b := rfl
/-- … and its text encoder. -/
theorem feat_txt (x : FVec Ideal Cert.KernelIdeal.S4096x768 .f32) (W : FVec Ideal Cert.KernelIdeal.S768x256 .f32)
    (b : FVec Ideal Cert.KernelIdeal.S256 .f32) :
    Cert.ReferenceIdeal.Read.val_main_v7 (F := Ideal) x W b = Cert.KernelIdeal.HostVals.feat (F := Ideal) x W b := rfl
/-- The row norms. -/
theorem norm_img (x : FVec Ideal Cert.KernelIdeal.S4096x768 .f32) (W : FVec Ideal Cert.KernelIdeal.S768x256 .f32)
    (b : FVec Ideal Cert.KernelIdeal.S256 .f32) :
    Cert.ReferenceIdeal.Read.val_main_v10 (F := Ideal) x W b
      = Cert.KernelIdeal.HostVals.rowNorm (Cert.KernelIdeal.HostVals.feat (F := Ideal) x W b) := rfl
theorem norm_txt (x : FVec Ideal Cert.KernelIdeal.S4096x768 .f32) (W : FVec Ideal Cert.KernelIdeal.S768x256 .f32)
    (b : FVec Ideal Cert.KernelIdeal.S256 .f32) :
    Cert.ReferenceIdeal.Read.val_main_v11 (F := Ideal) x W b
      = Cert.KernelIdeal.HostVals.rowNorm (Cert.KernelIdeal.HostVals.feat (F := Ideal) x W b) := rfl
/-- The projections onto the two halves of the causal weight. -/
theorem proj_img (x : FVec Ideal Cert.KernelIdeal.S4096x768 .f32) (W : FVec Ideal Cert.KernelIdeal.S768x256 .f32)
    (b : FVec Ideal Cert.KernelIdeal.S256 .f32) (cw : FVec Ideal Cert.KernelIdeal.S512x1 .f32) :
    Cert.ReferenceIdeal.Read.val_main_v17 (F := Ideal) x W b cw
      = Cert.KernelIdeal.HostVals.proj (Cert.KernelIdeal.HostVals.feat (F := Ideal) x W b)
          (extractStridedSlice Cert.KernelIdeal.S256x1 ![0, 0] cw Cert.KernelIdeal.Facts₀.slices_S512x1_S256x1_0_0) := rfl
theorem proj_txt (x : FVec Ideal Cert.KernelIdeal.S4096x768 .f32) (W : FVec Ideal Cert.KernelIdeal.S768x256 .f32)
    (b : FVec Ideal Cert.KernelIdeal.S256 .f32) (cw : FVec Ideal Cert.KernelIdeal.S512x1 .f32) :
    Cert.ReferenceIdeal.Read.val_main_v18 (F := Ideal) x W b cw
      = Cert.KernelIdeal.HostVals.proj (Cert.KernelIdeal.HostVals.feat (F := Ideal) x W b)
          (extractStridedSlice Cert.KernelIdeal.S256x1 ![256, 0] cw Cert.KernelIdeal.Facts₀.slices_S512x1_S256x1_256_0) := rfl

/-! ## The claims -/

theorem frame_k : Cert.frame_Kernel := fun m ρ _ => Cert.Kernel.Gen.frame m ρ
theorem frame_ki : Cert.frame_KernelIdeal := fun m ρ _ => Cert.KernelIdeal.Gen.frame m ρ
/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- At the ideal instance the kernel's three result arrays end at the specification's arrays of the host-computed
    intermediates (the run read tile by tile), and the reference's at the same arrays (its run read operation by
    operation) of arguments that agree. -/
theorem algebraic : Cert.algebraic_KernelIdeal_ReferenceIdeal := by
  intro m ρ m' ρ' _ hagree
  refine ⟨fun c => Cert.KernelIdeal.Arrays.finalK m c, fun c => Cert.KernelIdeal.Arrays.simK m c,
    fun c => Cert.KernelIdeal.Arrays.causalK m c, Cert.KernelIdeal.Arrays.run m ρ, ?_⟩
  refine (θ_run Cert.ReferenceIdeal.defs _ _).mono (fun _ h c => ?_) (Cert.ReferenceIdeal.Value.run (F := Ideal) m' ρ')
  obtain ⟨h29, h14, h26, hrest⟩ := h c
  obtain ⟨a0, a1, a2, a3, a4, a5, a6, a7, a8⟩ := hagree c
  refine ⟨h29.trans ?_, h14.trans ?_, h26.trans ?_, hrest⟩
  · rw [Cert.ReferenceIdeal.Read.val_main_v29_eq, Cert.ReferenceIdeal.RefArrays.final_eq, a0, a1, a2, a3, a4, a5, a6, a7, a8,
      feat_img, feat_txt, norm_img, norm_txt, proj_img, proj_txt]
  · rw [Cert.ReferenceIdeal.Read.val_main_v14_eq, Cert.ReferenceIdeal.RefArrays.sim_eq, a0, a1, a2, a3, a4, a5,
      feat_img, feat_txt, norm_img, norm_txt]
  · rw [Cert.ReferenceIdeal.Read.val_main_v26_eq, Cert.ReferenceIdeal.RefArrays.causal_eq, a0, a1, a2, a3, a4, a5, a6, a7, a8,
      proj_img, proj_txt]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
